-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S8x128x128 : Shape := ⟨3, ![8, 128, 128]⟩
abbrev S8x128 : Shape := ⟨2, ![8, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_v13 : IVec S_ 1) (main_v15 : IVec S262144 1) (main_c_5 : IVec S_ 1) : IVec S_ 1 :=
  let main_v16 : IVec S_ 1 := (fun x v => Host.reduce IntOp.andi x v reducesTo_S262144_S_d0 h_S_) main_v15 main_c_5
  let main_v17 : IVec S_ 1 := andi main_v13 main_v16
  let main_c_6 : IVec S_ 32 := constantI S_ 32 8#32
  let main_v18 : IVec S262144 32 := broadcastInDim S262144 ![] bcast_S_S262144 main_c_6
  let main_v19 : IVec S262144 1 := cmpi .slt main_arg1 main_v18
  let main_c_7 : IVec S_ 1 := constantI S_ 1 1#1
  let main_v20 : IVec S_ 1 := (fun x v => Host.reduce IntOp.andi x v reducesTo_S262144_S_d0 h_S_) main_v19 main_c_7
  let main_v21 : IVec S_ 1 := andi main_v17 main_v20
  main_v21

def fn {F : FTy → Type} [FloatOps F] (main_arg0 : FVec F S262144x128 .f32) (main_arg1 : IVec S262144 32) (main_arg2 : FVec F S8x128x128 .f32) (main_arg3 : FVec F S8x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S8x128x128 .f32 := Host.absf main_arg2
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg1 main_v14
  let main_c_5 : IVec S_ 1 := constantI S_ 1 1#1
  fn_part1 (F := F) main_arg1 main_v13 main_v15 main_c_5
-- ==== Kernel.lean ====
abbrev S262144x128 : Shape := ⟨2, ![262144, 128]⟩
abbrev S262144 : Shape := ⟨1, ![262144]⟩
abbrev S8x128x128 : Shape := ⟨3, ![8, 128, 128]⟩
abbrev S8x128 : Shape := ⟨2, ![8, 128]⟩
abbrev S262144x1 : Shape := ⟨2, ![262144, 1]⟩
abbrev S1024x128 : Shape := ⟨2, ![1024, 128]⟩
abbrev S2048x128 : Shape := ⟨2, ![2048, 128]⟩
abbrev S2048x1 : Shape := ⟨2, ![2048, 1]⟩
abbrev S1x8 : Shape := ⟨2, ![1, 8]⟩
abbrev S2048x8 : Shape := ⟨2, ![2048, 8]⟩
abbrev S2048x1024 : Shape := ⟨2, ![2048, 1024]⟩
abbrev S1x128 : Shape := ⟨2, ![1, 128]⟩
abbrev S128 : Shape := ⟨1, ![128]⟩

abbrev nBuf : Space → Nat
  | .hbm => 8
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S8x128x128, .f32⟩
  | .hbm, ⟨3, _⟩ => ⟨S8x128, .f32⟩
  | .hbm, ⟨4, _⟩ => ⟨S262144x1, .i32⟩
  | .hbm, ⟨5, _⟩ => ⟨S1024x128, .f32⟩
  | .hbm, ⟨6, _⟩ => ⟨S1024x128, .bf16⟩
  | .hbm, ⟨7, _⟩ => ⟨S262144x128, .f32⟩
  | .local _ .vmem, ⟨0, _⟩ => ⟨S2048x128, .f32⟩
  | .local _ .vmem, ⟨1, _⟩ => ⟨S2048x128, .f32⟩
  | .local _ .vmem, ⟨2, _⟩ => ⟨S2048x1, .i32⟩
  | .local _ .vmem, ⟨3, _⟩ => ⟨S2048x1, .i32⟩
  | .local _ .vmem, ⟨4, _⟩ => ⟨S1024x128, .bf16⟩
  | .local _ .vmem, ⟨5, _⟩ => ⟨S8x128, .f32⟩
  | .local _ .vmem, ⟨6, _⟩ => ⟨S2048x128, .f32⟩
  | .local _ .vmem, ⟨7, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S262144_S262144x1 : S262144.ShapeCasts S262144x1
  shapeCasts_S8x128x128_S1024x128 : S8x128x128.ShapeCasts S1024x128
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x8_d1_w32 : S1x8.Iotas .tc 32 [1]
  broadcasts_S2048x1_S2048x8 : S2048x1.Broadcasts S2048x8
  broadcasts_S1x8_S2048x8 : S1x8.Broadcasts S2048x8
  natLt_1_32 : 1 < 32
  inb_S2048x128_S2048x128_0_0 : ∀ a, (![0, 0] : Fin 2 → Nat) a + S2048x128.size a ≤ S2048x128.size a
  h_S2048x128 : 0 < S2048x128.numel
  slices_S2048x8_o0_0_S2048x1 : S2048x8.Slices ![0, 0] S2048x1
  broadcasts_S2048x1_S2048x128 : S2048x1.Broadcasts S2048x128
  slices_S2048x8_o0_1_S2048x1 : S2048x8.Slices ![0, 1] S2048x1
  slices_S2048x8_o0_2_S2048x1 : S2048x8.Slices ![0, 2] S2048x1
  slices_S2048x8_o0_3_S2048x1 : S2048x8.Slices ![0, 3] S2048x1
  slices_S2048x8_o0_4_S2048x1 : S2048x8.Slices ![0, 4] S2048x1
  slices_S2048x8_o0_5_S2048x1 : S2048x8.Slices ![0, 5] S2048x1
  slices_S2048x8_o0_6_S2048x1 : S2048x8.Slices ![0, 6] S2048x1
  slices_S2048x8_o0_7_S2048x1 : S2048x8.Slices ![0, 7] S2048x1
  concatenates_S2048x128_S2048x128_S2048x128_S2048x128_S2048x128_S2048x128_S2048x128_S2048x128_S2048x1024_d1 : Shape.Concatenates [S2048x128, S2048x128, S2048x128, S2048x128, S2048x128, S2048x128, S2048x128, S2048x128] S2048x1024 1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S8x128_S8x128_0_0 : ∀ a, (![0, 0] : Fin 2 → Nat) a + S8x128.size a ≤ S8x128.size a
  h_S8x128 : 0 < S8x128.numel
  slices_S8x128_o0_0_S1x128 : S8x128.Slices ![0, 0] S1x128
  shapeCasts_S1x128_S128 : S1x128.ShapeCasts S128
  shapeCasts_S128_S1x128 : S128.ShapeCasts S1x128
  broadcasts_S1x128_S2048x128 : S1x128.Broadcasts S2048x128
  slices_S8x128_o1_0_S1x128 : S8x128.Slices ![1, 0] S1x128
  slices_S8x128_o2_0_S1x128 : S8x128.Slices ![2, 0] S1x128
  slices_S8x128_o3_0_S1x128 : S8x128.Slices ![3, 0] S1x128
  slices_S8x128_o4_0_S1x128 : S8x128.Slices ![4, 0] S1x128
  slices_S8x128_o5_0_S1x128 : S8x128.Slices ![5, 0] S1x128
  slices_S8x128_o6_0_S1x128 : S8x128.Slices ![6, 0] S1x128
  slices_S8x128_o7_0_S1x128 : S8x128.Slices ![7, 0] S1x128
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S262144x128.size a
  hwx0_4 : ∀ i : grid0.Coords, EltTy.bits .f32 = 32 ∨ (Rect.block (s := S262144x128) S2048x128.size (cc0_transform_4 i) (hinb0_4 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S8x128x128 : Shape := ⟨3, ![8, 128, 128]⟩
abbrev S8x128 : Shape := ⟨2, ![8, 128]⟩
abbrev S_ : Shape := ⟨0, ![]⟩
abbrev S262144x1 : Shape := ⟨2, ![262144, 1]⟩
abbrev S1x128x128 : Shape := ⟨3, ![1, 128, 128]⟩
abbrev S128x128 : Shape := ⟨2, ![128, 128]⟩

abbrev nBuf : Space → Nat
  | .hbm => 104
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S8x128x128, .f32⟩
  | .hbm, ⟨3, _⟩ => ⟨S8x128, .f32⟩
  | .hbm, ⟨4, _⟩ => ⟨S_, .f32⟩
  | .hbm, ⟨5, _⟩ => ⟨S262144x128, .f32⟩
  | .hbm, ⟨6, _⟩ => ⟨S_, .i32⟩
  | .hbm, ⟨7, _⟩ => ⟨S262144, .i32⟩
  | .hbm, ⟨8, _⟩ => ⟨S262144, .i1⟩
  | .hbm, ⟨9, _⟩ => ⟨S262144, .f32⟩
  | .hbm, ⟨10, _⟩ => ⟨S262144x1, .f32⟩
  | .hbm, ⟨11, _⟩ => ⟨S1x128x128, .f32⟩
  | .hbm, ⟨12, _⟩ => ⟨S128x128, .f32⟩
  | .hbm, ⟨13, _⟩ => ⟨S262144x128, .f32⟩
  | .hbm, ⟨14, _⟩ => ⟨S262144x128, .f32⟩
  | .hbm, ⟨15, _⟩ => ⟨S262144x128, .f32⟩
  | .hbm, ⟨16, _⟩ => ⟨S262144x128, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S262144, .f32⟩
  | .hbm, ⟨21, _⟩ => ⟨S262144x1, .f32⟩
  | .hbm, ⟨22, _⟩ => ⟨S1x128x128, .f32⟩
  | .hbm, ⟨23, _⟩ => ⟨S128x128, .f32⟩
  | .hbm, ⟨24, _⟩ => ⟨S262144x128, .f32⟩
  | .hbm, ⟨25, _⟩ => ⟨S262144x128, .f32⟩
  | .hbm, ⟨26, _⟩ => ⟨S262144x128, .f32⟩
  | .hbm, ⟨27, _⟩ => ⟨S262144x128, .f32⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S262144, .f32⟩
  | .hbm, ⟨32, _⟩ => ⟨S262144x1, .f32⟩
  | .hbm, ⟨33, _⟩ => ⟨S1x128x128, .f32⟩
  | .hbm, ⟨34, _⟩ => ⟨S128x128, .f32⟩
  | .hbm, ⟨35, _⟩ => ⟨S262144x128, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S_, .i32⟩
  | .hbm, ⟨40, _⟩ => ⟨S262144, .i32⟩
  | .hbm, ⟨41, _⟩ => ⟨S262144, .i1⟩
  | .hbm, ⟨42, _⟩ => ⟨S262144, .f32⟩
  | .hbm, ⟨43, _⟩ => ⟨S262144x1, .f32⟩
  | .hbm, ⟨44, _⟩ => ⟨S1x128x128, .f32⟩
  | .hbm, ⟨45, _⟩ => ⟨S128x128, .f32⟩
  | .hbm, ⟨46, _⟩ => ⟨S262144x128, .f32⟩
  | .hbm, ⟨47, _⟩ => ⟨S262144x128, .f32⟩
  | .hbm, ⟨48, _⟩ => ⟨S262144x128, .f32⟩
  | .hbm, ⟨49, _⟩ => ⟨S262144x128, .f32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S262144, .f32⟩
  | .hbm, ⟨54, _⟩ => ⟨S262144x1, .f32⟩
  | .hbm, ⟨55, _⟩ => ⟨S1x128x128, .f32⟩
  | .hbm, ⟨56, _⟩ => ⟨S128x128, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S_, .i32⟩
  | .hbm, ⟨62, _⟩ => ⟨S262144, .i32⟩
  | .hbm, ⟨63, _⟩ => ⟨S262144, .i1⟩
  | .hbm, ⟨64, _⟩ => ⟨S262144, .f32⟩
  | .hbm, ⟨65, _⟩ => ⟨S262144x1, .f32⟩
  | .hbm, ⟨66, _⟩ => ⟨S1x128x128, .f32⟩
  | .hbm, ⟨67, _⟩ => ⟨S128x128, .f32⟩
  | .hbm, ⟨68, _⟩ => ⟨S262144x128, .f32⟩
  | .hbm, ⟨69, _⟩ => ⟨S262144x128, .f32⟩
  | .hbm, ⟨70, _⟩ => ⟨S262144x128, .f32⟩
  | .hbm, ⟨71, _⟩ => ⟨S262144x128, .f32⟩
  | .hbm, ⟨72, _⟩ => ⟨S_, .i32⟩
  | .hbm, ⟨73, _⟩ => ⟨S262144, .i32⟩
  | .hbm, ⟨74, _⟩ => ⟨S262144, .i1⟩
  | .hbm, ⟨75, _⟩ => ⟨S262144, .f32⟩
  | .hbm, ⟨76, _⟩ => ⟨S262144x1, .f32⟩
  | .hbm, ⟨77, _⟩ => ⟨S1x128x128, .f32⟩
  | .hbm, ⟨78, _⟩ => ⟨S128x128, .f32⟩
  | .hbm, ⟨79, _⟩ => ⟨S262144x128, .f32⟩
  | .hbm, ⟨80, _⟩ => ⟨S262144x128, .f32⟩
  | .hbm, ⟨81, _⟩ => ⟨S262144x128, .f32⟩
  | .hbm, ⟨82, _⟩ => ⟨S262144x128, .f32⟩
  | .hbm, ⟨83, _⟩ => ⟨S_, .i32⟩
  | .hbm, ⟨84, _⟩ => ⟨S262144, .i32⟩
  | .hbm, ⟨85, _⟩ => ⟨S262144, .i1⟩
  | .hbm, ⟨86, _⟩ => ⟨S262144, .f32⟩
  | .hbm, ⟨87, _⟩ => ⟨S262144x1, .f32⟩
  | .hbm, ⟨88, _⟩ => ⟨S1x128x128, .f32⟩
  | .hbm, ⟨89, _⟩ => ⟨S128x128, .f32⟩
  | .hbm, ⟨90, _⟩ => ⟨S262144x128, .f32⟩
  | .hbm, ⟨91, _⟩ => ⟨S262144x128, .f32⟩
  | .hbm, ⟨92, _⟩ => ⟨S262144x128, .f32⟩
  | .hbm, ⟨93, _⟩ => ⟨S262144x128, .f32⟩
  | .hbm, ⟨94, _⟩ => ⟨S_, .i32⟩
  | .hbm, ⟨95, _⟩ => ⟨S262144, .i32⟩
  | .hbm, ⟨96, _⟩ => ⟨S262144, .i1⟩
  | .hbm, ⟨97, _⟩ => ⟨S_, .i32⟩
  | .hbm, ⟨98, _⟩ => ⟨S262144, .i32⟩
  | .hbm, ⟨99, _⟩ => ⟨S262144, .i32⟩
  | .hbm, ⟨100, _⟩ => ⟨S262144, .i32⟩
  | .hbm, ⟨101, _⟩ => ⟨S262144x1, .i32⟩
  | .hbm, ⟨102, _⟩ => ⟨S262144x128, .f32⟩
  | .hbm, ⟨103, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c_4 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c_5 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_c_6 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_c_7 : Ref sig .tc := ⟨.hbm, 94, rfl⟩
abbrev main_v81 : Ref sig .tc := ⟨.hbm, 95, rfl⟩
abbrev main_v82 : Ref sig .tc := ⟨.hbm, 96, rfl⟩
abbrev main_c_8 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩

abbrev nD : Nat := 1
abbrev τ : Topo := Topo.v7x

variable {F : FTy → Type} [FloatOps F]

class Facts₀ : Prop where
  bcast_S_S262144x128 : S_.BroadcastsInDim S262144x128 (![] : Fin 0 → Fin S262144x128.rank)
  bcast_S_S262144 : S_.BroadcastsInDim S262144 (![] : Fin 0 → Fin S262144.rank)
  bcast_S262144_S262144x1_0 : S262144.BroadcastsInDim S262144x1 (![0] : Fin 1 → Fin S262144x1.rank)
  slices_S8x128x128_S1x128x128_0_0_0 : S8x128x128.Slices ![0, 0, 0] S1x128x128
  shapeCasts_S1x128x128_S128x128 : S1x128x128.ShapeCasts S128x128
  bcast_S262144x1_S262144x128_0_1 : S262144x1.BroadcastsInDim S262144x128 (![0, 1] : Fin 2 → Fin S262144x128.rank)
  slices_S8x128x128_S1x128x128_1_0_0 : S8x128x128.Slices ![1, 0, 0] S1x128x128
  slices_S8x128x128_S1x128x128_2_0_0 : S8x128x128.Slices ![2, 0, 0] S1x128x128
  slices_S8x128x128_S1x128x128_3_0_0 : S8x128x128.Slices ![3, 0, 0] S1x128x128
  slices_S8x128x128_S1x128x128_4_0_0 : S8x128x128.Slices ![4, 0, 0] S1x128x128
  slices_S8x128x128_S1x128x128_5_0_0 : S8x128x128.Slices ![5, 0, 0] S1x128x128
  slices_S8x128x128_S1x128x128_6_0_0 : S8x128x128.Slices ![6, 0, 0] S1x128x128
  slices_S8x128x128_S1x128x128_7_0_0 : S8x128x128.Slices ![7, 0, 0] S1x128x128
  dot_S262144x128_S128x128_S262144x128_1_0_0_1_n_n_wf : DotDims.WF S262144x128 S128x128 S262144x128 [1] [0] [0] [1] [] []
  gather_S8x128_S262144x1_S262144x128_1_0_n_n_0_1_1128_wf : GatherDims.WF S8x128 S262144x1 S262144x128 [1] [0] [] [0] [] 1 ![1, 128]

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def gather_S8x128_S262144x1_S262144x128_1_0_n_n_0_1_1128 : GatherDims S8x128 S262144x1 S262144x128 where
  offsetDims := [1]
  collapsedSliceDims := [0]
  operandBatchingDims := []
  startIndicesBatchingDims := []
  startIndexMap := [0]
  indexVectorDim := 1
  sliceSizes := ![1, 128]
  wf := gather_S8x128_S262144x1_S262144x128_1_0_n_n_0_1_1128_wf

class Facts : Prop extends Facts₀ where

variable [Facts]
-- ==== Proof.TypedLinear.lean ====
/-
  The typed linear map, entry by entry, and the ways of adding it up.

  Row `n` of `x : [262144, 128]` carries a type word `ty n`; with `τ` the type that word names among the eight,
  entry `(n, o)` of the result is `∑ k, x (n, k) · W (τ, k, o) + b (τ, o)`.

  Both programs reach that entry through the INDICATORS of the eight types — `hot w t` is `1` when the word `w` is
  the word of `t` and `0` otherwise —, one by multiplying the row by each indicator before ONE product against the
  eight weight matrices stacked on top of each other (1024 rows: row `128 τ + k` is row `k` of matrix `τ`), the
  other by multiplying each of the eight products by its indicator afterwards; and both add the indicator-weighted bias
  rows up from zero. On the extended reals `0 · a = 0` and `1 · a = a` for EVERY `a` (an infinity included), and
  `0 + a = a`, so every one of these sums keeps exactly its type-`τ` terms: no distributive law is used and nothing is
  assumed finite. What IS assumed is that the type word is one of `0 … 7`.
-/
import Idealize.ShloMosaic.PureOps.Ideal
import Idealize.ShloMosaic.Lib.ValueIdx

noncomputable section

open scoped BigOperators

namespace Cert.TypedLinear

open Idealize.ShloMosaic Idealize.ShloMosaic.ValueIdx

/-- The type a word names among the eight: its value modulo 8 (the value itself when it is below 8). -/
def typeIx (w : BitVec 32) : Fin 8 := ⟨w.toNat % 8, Nat.mod_lt _ (by decide)⟩

/-- Entry `(n, o)` of the typed linear map: row `n` of `x` against the weight matrix of the row's type, plus that
    type's bias row. -/
def entry (x : (⟨2, ![262144, 128]⟩ : Shape).Idx → EReal) (ty : (⟨1, ![262144]⟩ : Shape).Idx → BitVec 32)
    (W : (⟨3, ![8, 128, 128]⟩ : Shape).Idx → EReal) (b : (⟨2, ![8, 128]⟩ : Shape).Idx → EReal)
    (n : Fin 262144) (o : Fin 128) : EReal :=
  (∑ k : Fin 128, x (ix2 n k) * W (ix3 (typeIx (ty (ix1 n))) k o)) + b (ix2 (typeIx (ty (ix1 n))) o)

/-- The whole result array. -/
def result (x : (⟨2, ![262144, 128]⟩ : Shape).Idx → EReal) (ty : (⟨1, ![262144]⟩ : Shape).Idx → BitVec 32)
    (W : (⟨3, ![8, 128, 128]⟩ : Shape).Idx → EReal) (b : (⟨2, ![8, 128]⟩ : Shape).Idx → EReal) :
    (⟨2, ![262144, 128]⟩ : Shape).Idx → EReal :=
  fun i => entry x ty W b (i 0) (i 1)

/-- Every type word is one of `0 … 7`. -/
def Typed (ty : (⟨1, ![262144]⟩ : Shape).Idx → BitVec 32) : Prop := ∀ n : Fin 262144, (ty (ix1 n)).toNat < 8

/-! ## The indicator of a type -/

/-- `1` when the word `w` is the word of `t`, else `0`. -/
def hot (w : BitVec 32) (t : Nat) : EReal := if w = BitVec.ofNat 32 t then 1 else 0

/-- For a word below 8 the indicator of `t < 8` asks whether the word's type is `t`. -/
theorem hot_eq (w : BitVec 32) (hw : w.toNat < 8) (t : Nat) (ht : t < 8) :
    hot w t = if (typeIx w).val = t then 1 else 0 := by
  unfold hot
  have h : w = BitVec.ofNat 32 t ↔ (typeIx w).val = t := by
    show _ ↔ w.toNat % 8 = t
    constructor
    · rintro rfl
      rw [BitVec.toNat_ofNat]
      omega
    · intro h
      apply BitVec.eq_of_toNat_eq
      rw [BitVec.toNat_ofNat]
      omega
  simp only [h]

/-- A comparison for equality, widened to a word and converted as a signed integer, is the indicator of equality. -/
theorem sitofp_eq_word (w v : BitVec 32) :
    FloatOps.sitofp (F := Ideal) .f32 ((IntOp.cmpi .eq w v).setWidth 32) = if w = v then (1 : EReal) else 0 := by
  show ((((IntOp.cmpi .eq w v).setWidth 32).toInt : ℝ) : EReal) = _
  by_cases h : w = v
  · rw [if_pos h, show IntOp.cmpi .eq w v = 1#1 by simp [IntOp.cmpi, h]]
    rw [show ((1#1 : BitVec 1).setWidth 32).toInt = 1 by decide]
    norm_num
  · rw [if_neg h, show IntOp.cmpi .eq w v = 0#1 by
      have e : (w == v) = false := beq_eq_false_iff_ne.mpr h
      simp [IntOp.cmpi, e]]
    rw [show ((0#1 : BitVec 1).setWidth 32).toInt = 0 by decide]
    norm_num

/-- The same comparison converted as an unsigned bit. -/
theorem uitofp_eq_word (w v : BitVec 32) :
    FloatOps.uitofp (F := Ideal) .f32 (IntOp.cmpi .eq w v) = if w = v then (1 : EReal) else 0 := by
  show ((((IntOp.cmpi .eq w v)).toNat : ℝ) : EReal) = _
  by_cases h : w = v
  · rw [if_pos h, show IntOp.cmpi .eq w v = 1#1 by simp [IntOp.cmpi, h]]
    rw [show (1#1 : BitVec 1).toNat = 1 by decide]
    norm_num
  · rw [if_neg h, show IntOp.cmpi .eq w v = 0#1 by
      have e : (w == v) = false := beq_eq_false_iff_ne.mpr h
      simp [IntOp.cmpi, e]]
    rw [show (0#1 : BitVec 1).toNat = 0 by decide]
    norm_num

/-! ## The stacked product keeps the rows of one matrix -/

/-- Row `128 t + k` of the stack is row `k` of matrix `t`. -/
def stack : Fin 8 × Fin 128 ≃ Fin 1024 where
  toFun p := ⟨p.1.val * 128 + p.2.val, by have := p.1.isLt; have := p.2.isLt; omega⟩
  invFun j := (⟨j.val / 128, by have := j.isLt; omega⟩, ⟨j.val % 128, Nat.mod_lt _ (by decide)⟩)
  left_inv p := by
    have h1 := p.1.isLt
    have h2 := p.2.isLt
    refine Prod.ext (Fin.ext ?_) (Fin.ext ?_)
    · show (p.1.val * 128 + p.2.val) / 128 = p.1.val
      omega
    · show (p.1.val * 128 + p.2.val) % 128 = p.2.val
      omega
  right_inv j := by
    refine Fin.ext ?_
    show j.val / 128 * 128 + j.val % 128 = j.val
    omega

/-- A row masked by the indicators of the eight types, laid eight times side by side, against the stacked matrices:
    only the columns `128 τ … 128 τ + 127` of the row's own type `τ` are not `0`, and there the mask is `1`. -/
theorem stacked_dot (τ : Fin 8) (xr : Fin 128 → EReal) (wf : Fin 1024 → EReal) :
    ∑ j : Fin 1024, (xr ⟨j.val % 128, Nat.mod_lt _ (by decide)⟩ * (if τ.val = j.val / 128 then (1 : EReal) else 0)) * wf j
      = ∑ k : Fin 128, xr k * wf ⟨τ.val * 128 + k.val, by have := τ.isLt; have := k.isLt; omega⟩ := by
  rw [← Equiv.sum_comp stack, Fintype.sum_prod_type, Finset.sum_eq_single τ]
  · refine Finset.sum_congr rfl fun k _ => ?_
    have hk := k.isLt
    have h1 : (stack (τ, k)).val / 128 = τ.val := by
      show (τ.val * 128 + k.val) / 128 = τ.val
      omega
    have h2 : (⟨(stack (τ, k)).val % 128, Nat.mod_lt _ (by decide)⟩ : Fin 128) = k := Fin.ext (by
      show (τ.val * 128 + k.val) % 128 = k.val
      omega)
    rw [if_pos h1.symm, mul_one, h2]
    rfl
  · intro t _ hne
    refine Finset.sum_eq_zero fun k _ => ?_
    have hk := k.isLt
    have h1 : (stack (t, k)).val / 128 = t.val := by
      show (t.val * 128 + k.val) / 128 = t.val
      omega
    rw [if_neg (fun h => hne (Fin.ext (h.trans h1).symm)), mul_zero, zero_mul]
  · intro h
    exact absurd (Finset.mem_univ _) h

/-! ## The two chains of eight -/

/-- The bias rows weighted by the indicators and added up from zero, in the order of the types, leave the row of type `τ`. -/
theorem bias_chain (τ : Fin 8) (β : Fin 8 → EReal) (z : EReal) (hz : z = 0) :
    z + (if τ.val = 0 then (1 : EReal) else 0) * β 0 + (if τ.val = 1 then (1 : EReal) else 0) * β 1
      + (if τ.val = 2 then (1 : EReal) else 0) * β 2 + (if τ.val = 3 then (1 : EReal) else 0) * β 3
      + (if τ.val = 4 then (1 : EReal) else 0) * β 4 + (if τ.val = 5 then (1 : EReal) else 0) * β 5
      + (if τ.val = 6 then (1 : EReal) else 0) * β 6 + (if τ.val = 7 then (1 : EReal) else 0) * β 7 = β τ := by
  subst hz
  fin_cases τ <;> simp

/-- The eight products, each weighted by its indicator afterwards and added up from zero, leave the product of type `τ`. -/
theorem product_chain (τ : Fin 8) (S : Fin 8 → EReal) (z : EReal) (hz : z = 0) :
    z + S 0 * (if τ.val = 0 then (1 : EReal) else 0) + S 1 * (if τ.val = 1 then (1 : EReal) else 0)
      + S 2 * (if τ.val = 2 then (1 : EReal) else 0) + S 3 * (if τ.val = 3 then (1 : EReal) else 0)
      + S 4 * (if τ.val = 4 then (1 : EReal) else 0) + S 5 * (if τ.val = 5 then (1 : EReal) else 0)
      + S 6 * (if τ.val = 6 then (1 : EReal) else 0) + S 7 * (if τ.val = 7 then (1 : EReal) else 0) = S τ := by
  subst hz
  fin_cases τ <;> simp

end Cert.TypedLinear

end
-- ==== Proof.LibPlainMatmul.lean ====
/-
  A plain matrix product into a zero accumulator, read at one entry over the extended reals.

  For `a : [M, K]` and `b : [K, N]` under the dimension numbers "contract the left operand's axis 1 with the right
  operand's axis 0, no batch axis" (`DotDims.plain M K N`), the product accumulated into the zero splat is, at entry
  `(i, l)`, the sum over the contracted coordinate `k` of `a (i, k) * b (k, l)`: the contraction index of these
  dimension numbers has one axis of extent `K`, so the sum over it is re-indexed by its one coordinate, and the operand
  indices at `(i, l)` and `k` are `(i, k)` and `(k, l)`. Nothing is assumed of the entries (they may be infinite).
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand is read on row `i` of the output entry, -/
theorem lhs_row (j : (⟨2, ![M, N]⟩ : Shape).Idx) (q : (DotDims.plain M K N).contr.Idx) :
    ((DotDims.plain M K N).lhsIdx j q 0).val = (j 0).val := rfl
/-- at the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate, -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- on column `l` of the output entry. -/
theorem rhs_col (j : (⟨2, ![M, N]⟩ : Shape).Idx) (q : (DotDims.plain M K N).contr.Idx) :
    ((DotDims.plain M K N).rhsIdx j q 1).val = (j 1).val := rfl

/-- THE PRODUCT AT AN ENTRY: `(a · b) (i, l) = ∑ k, a (i, k) * b (k, l)`, into the zero accumulator. -/
theorem matmul_zero_apply {φ₁ φ₂ : FTy} (prec : Option ContractPrecision)
    (a : FVec Ideal ⟨2, ![M, K]⟩ φ₁) (b : FVec Ideal ⟨2, ![K, N]⟩ φ₂) (i : Fin M) (l : Fin N) :
    FloatOps.matmul (DotDims.plain M K N) prec a b (constant (F := Ideal) ⟨2, ![M, N]⟩ .f32 0x00000000#32) (ix2 i l)
      = ∑ k : Fin K, a (ix2 i k) * b (ix2 k l) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i l) ((contrEquiv1 (DotDims.plain M K N) K rfl rfl).symm k) = ix2 i k :=
    funext fun c => Fin.ext (by
      match c with
      | ⟨0, _⟩ => exact lhs_row M K N _ _
      | ⟨1, _⟩ => exact (lhs_col M K N _ _).trans hk)
  have er : (DotDims.plain M K N).rhsIdx (ix2 i l) ((contrEquiv1 (DotDims.plain M K N) K rfl rfl).symm k) = ix2 k l :=
    funext fun c => Fin.ext (by
      match c with
      | ⟨0, _⟩ => exact (rhs_row M K N _ _).trans hk
      | ⟨1, _⟩ => exact rhs_col M K N _ _)
  rw [el, er]

end Idealize.ShloMosaic.PlainMatmul

end
-- ==== Proof.KernelBody.lean ====
/-
  What one grid point of the kernel leaves in its output block, entry by entry, at the ideal values.

  The body loads a block of 2048 rows: their type words `ty` (a column), the rows `x` (128 wide), the eight weight
  matrices stacked into 1024 rows `wf`, and the eight bias rows `b`. It forms the indicator matrix `mask (p, t)`
  (`1` when row `p`'s word is the word of `t`), multiplies the row block by each indicator column and lays the
  eight masked copies side by side (`2048 × 1024`: column `128 t + k` is `x (p, k) · mask (p, t)`), takes ONE product
  of that against the stack, and adds the bias rows weighted by the indicator columns, summed up from zero in the order
  of the types. For a row whose word is one of `0 … 7`, of type `τ`, entry `(p, q)` is therefore
  `∑ k, x (p, k) · wf (128 τ + k, q) + b (τ, q)`.
-/
import proofs.«423097_j71116068487913_2_alg».proof.Proof.Gen.KernelIdeal.Value
import proofs.«423097_j71116068487913_2_alg».proof.Proof.TypedLinear
import proofs.«423097_j71116068487913_2_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Cert.KernelIdeal.Value Idealize.ShloMosaic Idealize.ShloMosaic.ValueIdx
open Cert.TypedLinear

/-- Two rank-2 indices with the same coordinates are one index. -/
theorem idx2_ext {n0 n1 : Nat} (f g : (⟨2, ![n0, n1]⟩ : Shape).Idx) (h0 : (f 0).val = (g 0).val) (h1 : (f 1).val = (g 1).val) :
    f = g :=
  funext fun a => Fin.ext (by
    match a with
    | ⟨0, _⟩ => exact h0
    | ⟨1, _⟩ => exact h1)

/-! ## The indicator matrix -/

/-- Entry `(p, t)` of the indicator matrix: is row `p`'s type word the word of `t`? -/
theorem mask_apply (ty : Vec Ideal S2048x1 .i32) (p : Fin 2048) (t : Fin 8) :
    k0_pay2 (F := Ideal) ty (ix2 p t) = hot (ty (ix2 p (0 : Fin 1))) t.val := by
  unfold k0_pay2
  show FloatOps.sitofp (F := Ideal) .f32 ((IntOp.cmpi .eq
      (broadcastTo S2048x8 (shapeCast S2048x1 ty shapeCasts_S2048x1_S2048x1) broadcasts_S2048x1_S2048x8 (ix2 p t))
      (broadcastTo S2048x8 (iota .tc S1x8 32 [1] iota_S1x8_d1_w32) broadcasts_S1x8_S2048x8 (ix2 p t))).setWidth 32) = _
  rw [broadcastTo_apply _ broadcasts_S2048x1_S2048x8 (ix2 p t) (ix2 p (0 : Fin 1)) (fun a => match a with
      | ⟨0, _⟩ => by show p.val = (if (2048 : Nat) = 1 then 0 else p.val); rw [if_neg (by decide)]
      | ⟨1, _⟩ => by show 0 = (if (1 : Nat) = 1 then 0 else t.val); rw [if_pos rfl]),
    shapeCast_self,
    broadcastTo_apply _ broadcasts_S1x8_S2048x8 (ix2 p t) (ix2 (0 : Fin 1) t) (fun a => match a with
      | ⟨0, _⟩ => by show 0 = (if (1 : Nat) = 1 then 0 else p.val); rw [if_pos rfl]
      | ⟨1, _⟩ => by show t.val = (if (8 : Nat) = 1 then 0 else t.val); rw [if_neg (by decide)]),
    iota_single_apply, sitofp_eq_word]
  rfl

/-- One indicator column, narrowed and copied along the 128 lanes, reads the indicator of its row. -/
theorem maskCol_apply (mask : FVec Ideal S2048x8 .f32) (t : Nat) (ht : t < 8) (hs : S2048x8.Slices ![0, t] S2048x1)
    (p : Fin 2048) (k : Fin 128) :
    broadcastTo S2048x128 (truncf .bf16 (extractStridedSlice S2048x1 ![0, t] mask hs) bitsLt_bf16_f32)
      broadcasts_S2048x1_S2048x128 (ix2 p k) = mask (ix2 p (⟨t, ht⟩ : Fin 8)) := by
  rw [broadcastTo_apply _ broadcasts_S2048x1_S2048x128 (ix2 p k) (ix2 p (0 : Fin 1)) (fun a => match a with
      | ⟨0, _⟩ => by show p.val = (if (2048 : Nat) = 1 then 0 else p.val); rw [if_neg (by decide)]
      | ⟨1, _⟩ => by show 0 = (if (1 : Nat) = 1 then 0 else k.val); rw [if_pos rfl])]
  show extractStridedSlice S2048x1 ![0, t] mask hs (ix2 p (0 : Fin 1)) = _
  exact extractStridedSlice_apply ![0, t] mask hs (ix2 p (0 : Fin 1)) (ix2 p (⟨t, ht⟩ : Fin 8)) (fun a => match a with
    | ⟨0, _⟩ => by show p.val = 0 + p.val; omega
    | ⟨1, _⟩ => by show t = t + 0; omega)

/-! ## The eight masked copies, side by side -/

/-- Copy `n`: the row block times indicator column `n`. -/
def parts (xb : FVec Ideal S2048x128 .bf16) (mask : FVec Ideal S2048x8 .f32) (n : Fin 8) : FVec Ideal S2048x128 .bf16 :=
  match n with
  | ⟨0, _⟩ => mulf xb (broadcastTo S2048x128 (truncf .bf16 (extractStridedSlice S2048x1 ![0, 0] mask slices_S2048x8_o0_0_S2048x1) bitsLt_bf16_f32) broadcasts_S2048x1_S2048x128)
  | ⟨1, _⟩ => mulf xb (broadcastTo S2048x128 (truncf .bf16 (extractStridedSlice S2048x1 ![0, 1] mask slices_S2048x8_o0_1_S2048x1) bitsLt_bf16_f32) broadcasts_S2048x1_S2048x128)
  | ⟨2, _⟩ => mulf xb (broadcastTo S2048x128 (truncf .bf16 (extractStridedSlice S2048x1 ![0, 2] mask slices_S2048x8_o0_2_S2048x1) bitsLt_bf16_f32) broadcasts_S2048x1_S2048x128)
  | ⟨3, _⟩ => mulf xb (broadcastTo S2048x128 (truncf .bf16 (extractStridedSlice S2048x1 ![0, 3] mask slices_S2048x8_o0_3_S2048x1) bitsLt_bf16_f32) broadcasts_S2048x1_S2048x128)
  | ⟨4, _⟩ => mulf xb (broadcastTo S2048x128 (truncf .bf16 (extractStridedSlice S2048x1 ![0, 4] mask slices_S2048x8_o0_4_S2048x1) bitsLt_bf16_f32) broadcasts_S2048x1_S2048x128)
  | ⟨5, _⟩ => mulf xb (broadcastTo S2048x128 (truncf .bf16 (extractStridedSlice S2048x1 ![0, 5] mask slices_S2048x8_o0_5_S2048x1) bitsLt_bf16_f32) broadcasts_S2048x1_S2048x128)
  | ⟨6, _⟩ => mulf xb (broadcastTo S2048x128 (truncf .bf16 (extractStridedSlice S2048x1 ![0, 6] mask slices_S2048x8_o0_6_S2048x1) bitsLt_bf16_f32) broadcasts_S2048x1_S2048x128)
  | ⟨7, _⟩ => mulf xb (broadcastTo S2048x128 (truncf .bf16 (extractStridedSlice S2048x1 ![0, 7] mask slices_S2048x8_o0_7_S2048x1) bitsLt_bf16_f32) broadcasts_S2048x1_S2048x128)
  | ⟨_ + 8, h⟩ => absurd h (Nat.not_lt.2 (Nat.le_add_left _ _))

/-- Copy `n` at `(p, k)` is `x (p, k) · mask (p, n)`. -/
theorem parts_apply (xb : FVec Ideal S2048x128 .bf16) (mask : FVec Ideal S2048x8 .f32) (n : Fin 8) (p : Fin 2048) (k : Fin 128) :
    parts xb mask n (ix2 p k) = xb (ix2 p k) * mask (ix2 p n) := by
  match n with
  | ⟨0, _⟩ => exact congrArg (xb (ix2 p k) * ·) (maskCol_apply mask 0 (by decide) _ p k)
  | ⟨1, _⟩ => exact congrArg (xb (ix2 p k) * ·) (maskCol_apply mask 1 (by decide) _ p k)
  | ⟨2, _⟩ => exact congrArg (xb (ix2 p k) * ·) (maskCol_apply mask 2 (by decide) _ p k)
  | ⟨3, _⟩ => exact congrArg (xb (ix2 p k) * ·) (maskCol_apply mask 3 (by decide) _ p k)
  | ⟨4, _⟩ => exact congrArg (xb (ix2 p k) * ·) (maskCol_apply mask 4 (by decide) _ p k)
  | ⟨5, _⟩ => exact congrArg (xb (ix2 p k) * ·) (maskCol_apply mask 5 (by decide) _ p k)
  | ⟨6, _⟩ => exact congrArg (xb (ix2 p k) * ·) (maskCol_apply mask 6 (by decide) _ p k)
  | ⟨7, _⟩ => exact congrArg (xb (ix2 p k) * ·) (maskCol_apply mask 7 (by decide) _ p k)
  | ⟨_ + 8, h⟩ => exact absurd h (Nat.not_lt.2 (Nat.le_add_left _ _))

/-- The product's payload, with the eight copies named: the copies laid side by side, against the stack, into zero. -/
theorem product_eq (ty : Vec Ideal S2048x1 .i32) (x : Vec Ideal S2048x128 .f32) (wf : Vec Ideal S1024x128 .bf16) :
    k0_pay3 (F := Ideal) ty x wf
      = FloatOps.matmul (F := Ideal) (φ₁ := .bf16) (φ₂ := .bf16) (DotDims.plain 2048 1024 128) none
          (concatenate S2048x1024 1 (List.ofFn fun n : Fin 8 =>
              (⟨S2048x128, parts (truncf .bf16 x bitsLt_bf16_f32) (k0_pay2 ty) n⟩ : (s : Shape) × (s.Idx → Ideal .bf16)))
            concatenates_S2048x128_S2048x128_S2048x128_S2048x128_S2048x128_S2048x128_S2048x128_S2048x128_S2048x1024_d1)
          (shapeCast S1024x128 (wf : S1024x128.Idx → Ideal .bf16) shapeCasts_S1024x128_S1024x128)
          (constant (F := Ideal) S2048x128 .f32 0x00000000#32) := rfl

/-- The side-by-side block at `(p, j)`: column `j` lies in copy `j / 128`, at lane `j % 128`. -/
theorem sideBySide_apply (xb : FVec Ideal S2048x128 .bf16) (mask : FVec Ideal S2048x8 .f32) (p : Fin 2048) (j : Fin 1024) :
    concatenate S2048x1024 1 (List.ofFn fun n : Fin 8 =>
        (⟨S2048x128, parts xb mask n⟩ : (s : Shape) × (s.Idx → Ideal .bf16)))
      concatenates_S2048x128_S2048x128_S2048x128_S2048x128_S2048x128_S2048x128_S2048x128_S2048x128_S2048x1024_d1 (ix2 p j)
      = xb (ix2 p (⟨j.val % 128, Nat.mod_lt _ (by decide)⟩ : Fin 128))
          * mask (ix2 p (⟨j.val / 128, by have := j.isLt; omega⟩ : Fin 8)) := by
  refine (concatenate_ofFn_apply (1 : Fin S2048x1024.rank) (parts xb mask)
    concatenates_S2048x128_S2048x128_S2048x128_S2048x128_S2048x128_S2048x128_S2048x128_S2048x128_S2048x1024_d1
    rfl 128 rfl (ix2 p j)
    (⟨j.val / 128, by have := j.isLt; omega⟩ : Fin 8) rfl
    (ix2 p (⟨j.val % 128, Nat.mod_lt _ (by decide)⟩ : Fin 128)) rfl
    (fun b hb => match b with
      | ⟨0, _⟩ => rfl
      | ⟨1, _⟩ => absurd rfl hb)).trans ?_
  exact parts_apply xb mask _ p _

/-- THE PRODUCT at `(p, q)`, for a row whose type word is one of `0 … 7`: only the type's own 128 columns of the
    side-by-side block are not zero, and there the indicator is one. -/
theorem product_apply (ty : Vec Ideal S2048x1 .i32) (x : Vec Ideal S2048x128 .f32) (wf : Vec Ideal S1024x128 .bf16)
    (p : Fin 2048) (q : Fin 128) (hw : (ty (ix2 p (0 : Fin 1))).toNat < 8) :
    k0_pay3 (F := Ideal) ty x wf (ix2 p q)
      = ∑ k : Fin 128, x (ix2 p k) * wf (ix2 (⟨(typeIx (ty (ix2 p (0 : Fin 1)))).val * 128 + k.val, by
          have := (typeIx (ty (ix2 p (0 : Fin 1)))).isLt; have := k.isLt; omega⟩ : Fin 1024) q) := by
  rw [product_eq]
  refine (Idealize.ShloMosaic.PlainMatmul.matmul_zero_apply 2048 1024 128 none _ _ p q).trans ?_
  refine Eq.trans (Finset.sum_congr rfl fun j _ => ?_)
    (stacked_dot (typeIx (ty (ix2 p (0 : Fin 1)))) (fun k => x (ix2 p k)) (fun j => wf (ix2 j q)))
  rw [sideBySide_apply, shapeCast_self, mask_apply, hot_eq _ hw _ (by have := j.isLt; omega)]
  rfl

/-! ## The block entry -/

/-- The bias accumulator starts at zero. -/
theorem zero_apply (y : S2048x128.Idx) : k0_pay4 (F := Ideal) y = (0 : EReal) := by
  show Ideal.ofBits .f32 0x00000000#32 = 0
  exact Ideal.ofBits_zero_f32

/-- ENTRY `(p, q)` OF THE BLOCK a grid point leaves, for a row whose type word is one of `0 … 7`: the row against its
    type's 128 rows of the stack, plus its type's bias row. -/
theorem block_entry (ty : Vec Ideal S2048x1 .i32) (x : Vec Ideal S2048x128 .f32) (wf : Vec Ideal S1024x128 .bf16)
    (b : Vec Ideal S8x128 .f32) (p : Fin 2048) (q : Fin 128) (hw : (ty (ix2 p (0 : Fin 1))).toNat < 8) :
    E4 (F := Ideal) ty x wf b (ix2 p q)
      = (∑ k : Fin 128, x (ix2 p k) * wf (ix2 (⟨(typeIx (ty (ix2 p (0 : Fin 1)))).val * 128 + k.val, by
          have := (typeIx (ty (ix2 p (0 : Fin 1)))).isLt; have := k.isLt; omega⟩ : Fin 1024) q))
        + b (ix2 (typeIx (ty (ix2 p (0 : Fin 1)))) q) := by
  have e0 : ix4_0 (ix2 p q) = ix2 p q := idx2_ext _ _ rfl rfl
  have e1 : ix4_1 (ix2 p q) = ix2 p q := idx2_ext _ _ rfl rfl
  have e2 : ix4_2 (ix2 p q) = ix2 p (0 : Fin 8) := idx2_ext _ _ rfl rfl
  have e3 : ix4_3 (ix2 p q) = ix2 (0 : Fin 8) q := idx2_ext _ _ rfl rfl
  have e4 : ix4_4 (ix2 p q) = ix2 p (1 : Fin 8) := idx2_ext _ _ rfl rfl
  have e5 : ix4_5 (ix2 p q) = ix2 (1 : Fin 8) q := idx2_ext _ _ rfl rfl
  have e6 : ix4_6 (ix2 p q) = ix2 p (2 : Fin 8) := idx2_ext _ _ rfl rfl
  have e7 : ix4_7 (ix2 p q) = ix2 (2 : Fin 8) q := idx2_ext _ _ rfl rfl
  have e8 : ix4_8 (ix2 p q) = ix2 p (3 : Fin 8) := idx2_ext _ _ rfl rfl
  have e9 : ix4_9 (ix2 p q) = ix2 (3 : Fin 8) q := idx2_ext _ _ rfl rfl
  have e10 : ix4_10 (ix2 p q) = ix2 p (4 : Fin 8) := idx2_ext _ _ rfl rfl
  have e11 : ix4_11 (ix2 p q) = ix2 (4 : Fin 8) q := idx2_ext _ _ rfl rfl
  have e12 : ix4_12 (ix2 p q) = ix2 p (5 : Fin 8) := idx2_ext _ _ rfl rfl
  have e13 : ix4_13 (ix2 p q) = ix2 (5 : Fin 8) q := idx2_ext _ _ rfl rfl
  have e14 : ix4_14 (ix2 p q) = ix2 p (6 : Fin 8) := idx2_ext _ _ rfl rfl
  have e15 : ix4_15 (ix2 p q) = ix2 (6 : Fin 8) q := idx2_ext _ _ rfl rfl
  have e16 : ix4_16 (ix2 p q) = ix2 p (7 : Fin 8) := idx2_ext _ _ rfl rfl
  have e17 : ix4_17 (ix2 p q) = ix2 (7 : Fin 8) q := idx2_ext _ _ rfl rfl
  unfold E4
  rw [e0, e1, e2, e3, e4, e5, e6, e7, e8, e9, e10, e11, e12, e13, e14, e15, e16, e17]
  rw [product_apply ty x wf p q hw, zero_apply]
  simp only [mask_apply]
  rw [hot_eq _ hw (0 : Fin 8).val (by decide), hot_eq _ hw (1 : Fin 8).val (by decide), hot_eq _ hw (2 : Fin 8).val (by decide),
    hot_eq _ hw (3 : Fin 8).val (by decide), hot_eq _ hw (4 : Fin 8).val (by decide), hot_eq _ hw (5 : Fin 8).val (by decide),
    hot_eq _ hw (6 : Fin 8).val (by decide), hot_eq _ hw (7 : Fin 8).val (by decide)]
  exact congrArg (_ + ·) (bias_chain (typeIx (ty (ix2 p (0 : Fin 1)))) (fun t => b (ix2 t q)) 0 rfl)

end Cert.KernelIdeal.Body

end
-- ==== Proof.KernelBlocks.lean ====
/-
  From the blocks the grid points write to the kernel's whole result array, at the ideal values.

  The grid has 128 points; point `t` works on rows `2048 t … 2048 t + 2047`. It is handed block `t` of `x` and of the
  type column, and the WHOLE stack of weights and the WHOLE bias array (their one block, at every point); it writes
  block `t` of the result. Before the region the host lays the type words out as a column (word `n` at `(n, 0)`) and
  stacks the eight weight matrices (row `128 τ + k` of the stack is row `k` of matrix `τ`, narrowed in format, which
  changes no ideal value). So, when every type word is one of `0 … 7`, point `t` writes block `t` of the typed linear
  map `TypedLinear.result` of the four argument arrays; the 128 blocks tile the `262144` rows, and the array ends
  holding that map.
-/
import proofs.«423097_j71116068487913_2_alg».proof.Proof.KernelBody
import Idealize.ShloMosaic.Lib.StableHlo.Run
import Idealize.ShloMosaic.Lib.Tactic

noncomputable section

open scoped BigOperators

namespace Cert.KernelIdeal.Blocks

open Cert.KernelIdeal Cert.KernelIdeal.Gen Cert.KernelIdeal.Value Cert.KernelIdeal.Body
open Idealize.ShloMosaic Idealize.ShloMosaic.TcCoe Idealize.ShloMosaic.ValueIdx Idealize.SL.Sem
open Idealize.ShloMosaic.Pipeline (Dat)
open Cert.TypedLinear

variable (m : (ℓ : Loc nD τ sig) → Buf (Elt Ideal) ℓ) (ρ : Dev nD → PrngReg)

/-! ## The four argument arrays, and the blocks a point is handed, at their literal types -/

abbrev xArr (c : Dev nD) : S262144x128.Idx → EReal := m ((c : Thread nD τ).loc main_arg0)
abbrev tyArr (c : Dev nD) : S262144.Idx → BitVec 32 := m ((c : Thread nD τ).loc main_arg1)
abbrev wArr (c : Dev nD) : S8x128x128.Idx → EReal := m ((c : Thread nD τ).loc main_arg2)
abbrev bArr (c : Dev nD) : S8x128.Idx → EReal := m ((c : Thread nD τ).loc main_arg3)

abbrev xblk (c : Dev nD) (t : Fin cfg0.N) : Vec Ideal S2048x128 .f32 := iblk m c 0 t
abbrev tblk (c : Dev nD) (t : Fin cfg0.N) : Vec Ideal S2048x1 .i32 := iblk m c 1 t
abbrev wblk (c : Dev nD) (t : Fin cfg0.N) : Vec Ideal S1024x128 .bf16 := iblk m c 2 t
abbrev bblk (c : Dev nD) (t : Fin cfg0.N) : Vec Ideal S8x128 .f32 := iblk m c 3 t

theorem hz : (![0, 0] : Fin 2 → Nat) = fun _ => 0 := funext fun a => by fin_cases a <;> rfl

/-- The printed index maps over the grid: the row windows are at block `t`, the two resident windows at block `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## What the host prepared before the region -/

/-- The type column is the type words, one per row. -/
theorem V_typeColumn (c : Dev nD) :
    (V m c main_v0 : S262144x1.Idx → BitVec 32) = shapeCast S262144x1 (tyArr m c) shapeCasts_S262144_S262144x1 := by
  dsimp only [Gen.V, Gen.hostOps0]
  after_results
  rfl

/-- The stack is the weights re-laid as 1024 rows (and narrowed in format, the identity here). -/
theorem V_stack (c : Dev nD) :
    (V m c main_v2 : S1024x128.Idx → EReal)
      = truncf (F := Ideal) .bf16 (shapeCast S1024x128 (wArr m c) shapeCasts_S8x128x128_S1024x128) bitsLt_bf16_f32 := by
  dsimp only [Gen.V, Gen.hostOps0]
  after_results
  rfl

/-! ## The blocks, read -/

theorem xblk_apply (c : Dev nD) (t : Fin cfg0.N) (p : Fin 2048) (k : Fin 128) (n : Fin 262144) (hn : n.val = t.val * 2048 + p.val) :
    xblk m c t (ix2 p k) = xArr m c (ix2 n k) := by
  obtain ⟨e0, e1, -⟩ := idx_facts t
  show iblk m c 0 t (ix2 p k) = _
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t (0 : Fin 2) * 2048 + 1 * p.val = n.val; rw [e0, hn]; omega
  | ⟨1, _⟩ => show win0_0.index t (1 : Fin 2) * 128 + 1 * k.val = k.val; rw [e1]; omega

theorem tblk_apply (c : Dev nD) (t : Fin cfg0.N) (p : Fin 2048) (n : Fin 262144) (hn : n.val = t.val * 2048 + p.val) :
    tblk m c t (ix2 p (0 : Fin 1)) = tyArr m c (ix1 n) := by
  obtain ⟨-, -, e0, e1, -⟩ := idx_facts t
  show iblk m c 1 t (ix2 p (0 : Fin 1)) = _
  unfold iblk
  rw [View.read_apply]
  show V m c main_v0 _ = _
  rw [V_typeColumn]
  refine shapeCast_apply _ _ _ (ix1 n) ?_
  rw [Shape.rowMajor_val_one, Shape.rowMajor_val_two]
  show n.val = (win0_1.index t (0 : Fin 2) * 2048 + 1 * p.val) * 1 + (win0_1.index t (1 : Fin 2) * 1 + 1 * 0)
  rw [e0, e1, hn]
  omega

theorem wblk_apply (c : Dev nD) (t : Fin cfg0.N) (s : Fin 8) (k : Fin 128) (q : Fin 128) (j : Fin 1024) (hj : j.val = s.val * 128 + k.val) :
    wblk m c t (ix2 j q) = wArr m c (ix3 s k q) := by
  obtain ⟨-, -, -, -, e0, e1, -⟩ := idx_facts t
  show iblk m c 2 t (ix2 j q) = _
  unfold iblk
  rw [View.read_apply]
  show V m c main_v2 _ = _
  rw [V_stack]
  show shapeCast S1024x128 (wArr m c) shapeCasts_S8x128x128_S1024x128 _ = _
  refine shapeCast_apply _ _ _ (ix3 s k q) ?_
  rw [Shape.rowMajor_val_three, Shape.rowMajor_val_two]
  show (s.val * 128 + k.val) * 128 + q.val = (win0_2.index t (0 : Fin 2) * 1024 + 1 * j.val) * 128 + (win0_2.index t (1 : Fin 2) * 128 + 1 * q.val)
  rw [e0, e1, hj]
  omega

theorem bblk_apply (c : Dev nD) (t : Fin cfg0.N) (s : Fin 8) (q : Fin 128) :
    bblk m c t (ix2 s q) = bArr m c (ix2 s q) := by
  obtain ⟨-, -, -, -, -, -, e0, e1, -⟩ := idx_facts t
  show iblk m c 3 t (ix2 s q) = _
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_3.index t (0 : Fin 2) * 8 + 1 * s.val = s.val; rw [e0]; omega
  | ⟨1, _⟩ => show win0_3.index t (1 : Fin 2) * 128 + 1 * q.val = q.val; rw [e1]; omega

/-! ## What a point writes back, and the whole array -/

/-- POINT `t` WRITES BLOCK `t` OF THE TYPED LINEAR MAP of the argument arrays, when every type word is one of `0 … 7`. -/
theorem flushed_eq (c : Dev nD) (hty : Typed (tyArr m c)) (t : Fin cfg0.N) :
    (dats m 0 c).flushed 4 t
      = ((cfg0.win 4).blk t).view.read (Elt Ideal) (result (xArr m c) (tyArr m c) (wArr m c) (bArr m c)) := by
  obtain ⟨-, -, -, -, -, -, -, -, e0, e1⟩ := idx_facts t
  have ht : t.val < 128 := Nat.lt_of_lt_of_eq t.isLt N_0
  rw [Value.flushed4]
  funext y
  obtain ⟨p, q, rfl⟩ : ∃ (p : Fin 2048) (q : Fin 128), y = ix2 p q := ⟨y 0, y 1, eq_ix2 y⟩
  have hp := p.isLt
  let n : Fin 262144 := ⟨t.val * 2048 + p.val, by omega⟩
  have hemb : ((cfg0.win 4).blk t).view.emb (ix2 p q) = ix2 n q := by
    funext a
    apply Fin.ext
    match a with
    | ⟨0, _⟩ => show win0_4.index t (0 : Fin 2) * 2048 + 1 * p.val = t.val * 2048 + p.val; rw [e0]; omega
    | ⟨1, _⟩ => show win0_4.index t (1 : Fin 2) * 128 + 1 * q.val = q.val; rw [e1]; omega
  show out0_4 (iblk m c 0 t) (iblk m c 1 t) (iblk m c 2 t) (iblk m c 3 t) (ix2 p q)
    = result (xArr m c) (tyArr m c) (wArr m c) (bArr m c) (((cfg0.win 4).blk t).view.emb (ix2 p q))
  rw [hemb]
  unfold out0_4
  rw [canon4_eq]
  simp only [View.ld_unit_zero (S := S2048x1) hz, View.ld_unit_zero (S := S2048x128) hz,
    View.ld_unit_zero (S := S1024x128) hz, View.ld_unit_zero (S := S8x128) hz]
  have hword : tblk m c t (ix2 p (0 : Fin 1)) = tyArr m c (ix1 n) := tblk_apply m c t p n rfl
  have hw : (tblk m c t (ix2 p (0 : Fin 1))).toNat < 8 := by rw [hword]; exact hty n
  refine (block_entry (tblk m c t) (xblk m c t) (wblk m c t) (bblk m c t) p q hw).trans ?_
  have hτ : typeIx (tblk m c t (ix2 p (0 : Fin 1))) = typeIx (tyArr m c (ix1 n)) := congrArg typeIx hword
  show _ = entry (xArr m c) (tyArr m c) (wArr m c) (bArr m c) n q
  unfold entry
  rw [bblk_apply]
  refine congrArg₂ (· + ·) (Finset.sum_congr rfl fun k _ => ?_) (by rw [hτ])
  rw [xblk_apply m c t p k n rfl, wblk_apply m c t (typeIx (tblk m c t (ix2 p (0 : Fin 1)))) k q _ rfl, hτ]

/-- The 128 blocks tile the rows. -/
theorem cover (i : S262144x128.Idx) : ∃ t : Fin cfg0.N, (cfg0.win 4).flush t = true ∧ i ∈ ((cfg0.win 4).blk t).view.set := by
  have hi0 : (i 0).val < 262144 := (i 0).isLt
  have hi1 : (i 1).val < 128 := (i 1).isLt
  let t : Fin cfg0.N := ⟨(i 0).val / 2048, Nat.lt_of_lt_of_eq (show (i 0).val / 2048 < 128 by omega) N_0.symm⟩
  obtain ⟨-, -, -, -, -, -, -, -, e0, e1⟩ := idx_facts t
  refine ⟨t, flush0_4 t, ?_⟩
  show i ∈ ((View.whole main_v3).slice (win0_4.rect t)).set
  rw [View.set_slice_whole, Rect.mem_set_unit]
  intro a
  match a with
  | ⟨0, _⟩ =>
    show win0_4.index t (0 : Fin 2) * 2048 ≤ (i 0).val ∧ (i 0).val < win0_4.index t (0 : Fin 2) * 2048 + 2048
    rw [e0]
    show (i 0).val / 2048 * 2048 ≤ (i 0).val ∧ (i 0).val < (i 0).val / 2048 * 2048 + 2048
    omega
  | ⟨1, _⟩ =>
    show win0_4.index t (1 : Fin 2) * 128 ≤ (i 1).val ∧ (i 1).val < win0_4.index t (1 : Fin 2) * 128 + 128
    rw [e1]
    omega

/-- THE RESULT ARRAY after the run is the typed linear map of the argument arrays. -/
theorem final (c : Dev nD) (hty : Typed (tyArr m c)) :
    (dats m 0 c).arrAt 4 cfg0.N = result (xArr m c) (tyArr m c) (wArr m c) (bArr m c) :=
  (dats m 0 c).arrAt_eq_of_cover 4 (result (xArr m c) (tyArr m c) (wArr m c) (bArr m c))
    (fun t _ => flushed_eq m c hty t) cover

/-- The kernel's run, read: the result array at the typed linear map, the arguments unchanged. -/
theorem run (hty : ∀ c : Dev nD, Typed (tyArr m c)) :
    θ_run defs (onTc (τ := τ) (main (F := Ideal))) ⟨m, fun _ => 0, ρ⟩ fun r => ∀ c : Dev nD,
      r.2.mem ((c : Thread nD τ).loc main_v3) = result (xArr m c) (tyArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hty c)), (h c).2⟩)
    (Value.run_blocks m ρ)

end Cert.KernelIdeal.Blocks

end
-- ==== Proof.TypeWords.lean ====
/-
  The type words as 32-bit signed integers.

  A word `w` with `0 ≤ w` and `w < 8` as SIGNED integers has unsigned value below 8 (a negative word has its top bit
  set and is not `≥ 0`); such a word is not negative, and it is the word of the type it names.
-/
import proofs.«423097_j71116068487913_2_alg».proof.Proof.TypedLinear
import Idealize.ShloMosaic.Lib.StableHlo.Predicate

namespace Cert.TypedLinear

open Idealize.ShloMosaic Idealize.ShloMosaic.StableHlo.Predicate

/-- A word that is `≥ 0` and `< 8` as a signed integer is one of `0 … 7`. -/
theorem toNat_lt_eight (w : BitVec 32) (h0 : IntOp.cmpi .sge w 0#32 = 1#1) (h8 : IntOp.cmpi .slt w 8#32 = 1#1) :
    w.toNat < 8 := by
  have a0 : (0#32 : BitVec 32).sle w = true := (ofBool_eq_one_iff _).mp h0
  have a8 : w.slt 8#32 = true := (ofBool_eq_one_iff _).mp h8
  simp only [BitVec.sle, decide_eq_true_eq] at a0
  simp only [BitVec.slt, decide_eq_true_eq] at a8
  rw [show (0#32 : BitVec 32).toInt = 0 by decide] at a0
  rw [show (8#32 : BitVec 32).toInt = 8 by decide] at a8
  rw [BitVec.toInt_eq_toNat_cond] at a0 a8
  have := w.isLt
  split at a0 <;> omega

/-- A word below 8 is not negative. -/
theorem slt_zero_of_small (w : BitVec 32) (hw : w.toNat < 8) : IntOp.cmpi .slt w 0#32 = 0#1 := by
  apply ValueIdx.eq_zero_of_ne_one
  intro h
  have h' : w.toNat < (0#32 : BitVec 32).toNat := (slt_iff_toNat (by omega) (by decide)).mp h
  rw [show (0#32 : BitVec 32).toNat = 0 by decide] at h'
  omega

/-- A word below 8 is the word of the type it names. -/
theorem eq_ofNat_typeIx (w : BitVec 32) (hw : w.toNat < 8) : w = BitVec.ofNat 32 (typeIx w).val := by
  apply BitVec.eq_of_toNat_eq
  rw [BitVec.toNat_ofNat]
  show w.toNat = w.toNat % 8 % 2 ^ 32
  omega

end Cert.TypedLinear
-- ==== Proof.LibGatherRows.lean ====
/-
  `stablehlo.gather` READ AT ONE RESULT ENTRY, for the two "take whole rows" shapes of dimension numbers.

  (1) Rows of a matrix: operand `N × C`, start indices `R × 1`, result `R × C`; offset axis the result's second,
      the operand's first axis collapsed and named by the one component of the start index, slice `1 × C`.
      Entry `(e, j)` of the result is the operand at `(r, j)` when start index `e` is the word of `r < N`.
  (2) Rows of a 3-D table by two indices: operand `N × T × C`, start indices `R × 2`, result `R × C`; the operand's
      first two axes collapsed and named by the two components, slice `1 × 1 × C`.
      Entry `(e, j)` is the operand at `(n, t, j)` when start index `e` is the pair of words of `n < N`, `t < T`.

  In both, a start index is read as a signed 32-bit integer and clamped to `[0, size − slice]`; a natural below the
  axis's size (itself below `2 ^ 31`) reads back as itself and the clamp `min v (size − 1)` does not move it.
  Each statement is given twice: for the record built from the attribute lists (conditions `wf` an argument), and for
  ANY record whose fields are those lists (the hypotheses close by `rfl` on a record written out field by field).
-/
import Idealize.ShloMosaic.PureOps.ShapeOps
import Idealize.ShloMosaic.Lib.ValueIdx

namespace Idealize.ShloMosaic.GatherRows

open Idealize.ShloMosaic Idealize.ShloMosaic.ValueIdx

/-- A natural below `2 ^ 31`, written as a 32-bit word and read back signed, is itself. -/
theorem toInt_toNat_ofNat {v : Nat} (hv : v < 2 ^ 31) : (BitVec.ofNat 32 v).toInt.toNat = v := by
  have h1 : (BitVec.ofNat 32 v).toNat = v := by
    rw [BitVec.toNat_ofNat]; exact Nat.mod_eq_of_lt (by omega)
  rw [BitVec.toInt_eq_toNat_cond, h1]
  split
  · simp
  · omega

section Rows
variable {α : Type} {N C R : Nat}

/-- The dimension numbers "start index `e` is one row number; take that whole row" for an `N × C` matrix, an `R × 1`
    array of start indices and an `R × C` result, under conditions `wf` stated elsewhere. -/
abbrev rowsDims (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![R, 1]⟩ ⟨2, ![R, C]⟩ [1] [0] [] [0] [] 1 ![1, C])

/-- On the row axis the operand is read at the start index, when that is in range (the clamp `min v (N − 1)` leaves
    `v < N` alone), -/
theorem rows_operand_row (idx : IVec ⟨2, ![R, 1]⟩ 32) (e : Fin R) (j : Fin C) (r : Fin N)
    (h : idx (ix2 e (0 : Fin 1)) = BitVec.ofNat 32 r.val) (hN : N < 2 ^ 31) :
    ((rowsDims wf).operandIdx (ix2 e j) idx 0).val = r.val := by
  show (rowsDims wf).start (ix2 e j) idx 0 + (rowsDims wf).batchCoord (ix2 e j) 0 + (rowsDims wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowsDims wf).startIndexMap from List.mem_singleton.mpr rfl)]
  have hsi : (rowsDims wf).siIdx (ix2 e j) ⟨List.idxOf (0 : Fin 2) (rowsDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi, h, toInt_toNat_ofNat (by have := r.isLt; omega)]
  show min r.val (N - 1) = r.val
  exact Nat.min_eq_left (by have := r.isLt; omega)

/-- and on the column axis at the result entry's column. -/
theorem rows_operand_col (idx : IVec ⟨2, ![R, 1]⟩ 32) (e : Fin R) (j : Fin C) :
    ((rowsDims wf).operandIdx (ix2 e j) idx 1).val = j.val := by
  show (rowsDims wf).start (ix2 e j) idx 1 + (rowsDims wf).batchCoord (ix2 e j) 1 + (rowsDims wf).offCoord (ix2 e j) 1 = _
  rw [GatherDims.batchCoord_eq_zero _ _ _ List.not_mem_nil, Nat.add_zero]
  unfold GatherDims.start
  rw [dif_neg (show (1 : Fin 2) ∉ ([0] : List (Fin 2)) by decide), Nat.zero_add]
  rfl

/-- The gather read at `(e, j)`, for the record built from the attribute lists: the matrix at `(r, j)`. -/
theorem rowsDims_apply
    (x : (⟨2, ![N, C]⟩ : Shape).Idx → α) (idx : IVec ⟨2, ![R, 1]⟩ 32) (e : Fin R) (j : Fin C) (r : Fin N)
    (h : idx (ix2 e (0 : Fin 1)) = BitVec.ofNat 32 r.val) (hN : N < 2 ^ 31) :
    Host.gather (rowsDims wf) x idx (ix2 e j) = x (ix2 r j) := by
  unfold Host.gather
  congr 1
  funext a
  match a with
  | ⟨0, _⟩ => exact Fin.ext (rows_operand_row wf idx e j r h hN)
  | ⟨1, _⟩ => exact Fin.ext (rows_operand_col wf idx e j)

/-- ROWS OF A MATRIX, for any dimension numbers with these attribute lists: a gather of whole rows of an `N × C`
    matrix at an `R × 1` array of start indices reads, at result entry `(e, j)`, the matrix at `(r, j)`, where `r` is
    the in-range row that start index `e` names. -/
theorem gather_rows_apply (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![R, 1]⟩ 32) (e : Fin R) (j : Fin C) (r : Fin N)
    (h : idx (ix2 e (0 : Fin 1)) = BitVec.ofNat 32 r.val) (hN : N < 2 ^ 31) :
    Host.gather d x idx (ix2 e j) = x (ix2 r j) := by
  obtain ⟨od, cd, ob, sb, sm, iv, ss, wf⟩ := d
  simp only at hod hcd hob hsb hsm hiv hss
  subst hod hcd hob hsb hsm hiv hss
  exact rowsDims_apply wf x idx e j r h hN

end Rows

section TableRows
variable {α : Type} {N T C R : Nat}

/-- The dimension numbers "start index `e` is a pair (first axis, second axis); take the whole third axis there" for an
    `N × T × C` table, an `R × 2` array of start indices and an `R × C` result, under conditions `wf` stated elsewhere. -/
abbrev tableDims (wf : GatherDims.WF ⟨3, ![N, T, C]⟩ ⟨2, ![R, 2]⟩ ⟨2, ![R, C]⟩ [1] [0, 1] [] [0, 1] [] 1 ![1, 1, C]) :
    GatherDims ⟨3, ![N, T, C]⟩ ⟨2, ![R, 2]⟩ ⟨2, ![R, C]⟩ where
  offsetDims := [1]
  collapsedSliceDims := [0, 1]
  operandBatchingDims := []
  startIndicesBatchingDims := []
  startIndexMap := [0, 1]
  indexVectorDim := 1
  sliceSizes := ![1, 1, C]
  wf := wf

variable (wf : GatherDims.WF ⟨3, ![N, T, C]⟩ ⟨2, ![R, 2]⟩ ⟨2, ![R, C]⟩ [1] [0, 1] [] [0, 1] [] 1 ![1, 1, C])

/-- On the first axis the operand is read at the first component of the start index, when that is in range, -/
theorem table_operand_fst (idx : IVec ⟨2, ![R, 2]⟩ 32) (e : Fin R) (j : Fin C) (n : Fin N)
    (h0 : idx (ix2 e (0 : Fin 2)) = BitVec.ofNat 32 n.val) (hN : N < 2 ^ 31) :
    ((tableDims wf).operandIdx (ix2 e j) idx 0).val = n.val := by
  show (tableDims wf).start (ix2 e j) idx 0 + (tableDims wf).batchCoord (ix2 e j) 0 + (tableDims wf).offCoord (ix2 e j) 0 = _
  rw [GatherDims.batchCoord_eq_zero _ _ _ List.not_mem_nil, Nat.add_zero,
    GatherDims.offCoord_eq_zero _ _ _ (fun h => ((GatherDims.mem_sKept _ _).mp h).1
      (show (0 : Fin 3) ∈ ([0, 1] : List (Fin 3)) by decide)), Nat.add_zero]
  unfold GatherDims.start
  rw [dif_pos (show (0 : Fin 3) ∈ ([0, 1] : List (Fin 3)) by decide)]
  have hsi : (tableDims wf).siIdx (ix2 e j) ⟨List.idxOf (0 : Fin 3) (tableDims wf).startIndexMap,
      List.idxOf_lt_length_iff.2 (show (0 : Fin 3) ∈ ([0, 1] : List (Fin 3)) by decide)⟩ = ix2 e (0 : Fin 2) := by
    funext b; refine Fin.ext ?_
    match b with
    | ⟨0, _⟩ => rfl
    | ⟨1, _⟩ => rfl
  rw [hsi, h0, toInt_toNat_ofNat (by have := n.isLt; omega)]
  show min n.val (N - 1) = n.val
  exact Nat.min_eq_left (by have := n.isLt; omega)

/-- on the second at the second component, when that is in range, -/
theorem table_operand_snd (idx : IVec ⟨2, ![R, 2]⟩ 32) (e : Fin R) (j : Fin C) (t : Fin T)
    (h1 : idx (ix2 e (1 : Fin 2)) = BitVec.ofNat 32 t.val) (hT : T < 2 ^ 31) :
    ((tableDims wf).operandIdx (ix2 e j) idx 1).val = t.val := by
  show (tableDims wf).start (ix2 e j) idx 1 + (tableDims wf).batchCoord (ix2 e j) 1 + (tableDims wf).offCoord (ix2 e j) 1 = _
  rw [GatherDims.batchCoord_eq_zero _ _ _ List.not_mem_nil, Nat.add_zero,
    GatherDims.offCoord_eq_zero _ _ _ (fun h => ((GatherDims.mem_sKept _ _).mp h).1
      (show (1 : Fin 3) ∈ ([0, 1] : List (Fin 3)) by decide)), Nat.add_zero]
  unfold GatherDims.start
  rw [dif_pos (show (1 : Fin 3) ∈ ([0, 1] : List (Fin 3)) by decide)]
  have hsi : (tableDims wf).siIdx (ix2 e j) ⟨List.idxOf (1 : Fin 3) (tableDims wf).startIndexMap,
      List.idxOf_lt_length_iff.2 (show (1 : Fin 3) ∈ ([0, 1] : List (Fin 3)) by decide)⟩ = ix2 e (1 : Fin 2) := by
    funext b; refine Fin.ext ?_
    match b with
    | ⟨0, _⟩ => rfl
    | ⟨1, _⟩ => rfl
  rw [hsi, h1, toInt_toNat_ofNat (by have := t.isLt; omega)]
  show min t.val (T - 1) = t.val
  exact Nat.min_eq_left (by have := t.isLt; omega)

/-- and on the third at the result entry's column. -/
theorem table_operand_col (idx : IVec ⟨2, ![R, 2]⟩ 32) (e : Fin R) (j : Fin C) :
    ((tableDims wf).operandIdx (ix2 e j) idx 2).val = j.val := by
  show (tableDims wf).start (ix2 e j) idx 2 + (tableDims wf).batchCoord (ix2 e j) 2 + (tableDims wf).offCoord (ix2 e j) 2 = _
  rw [GatherDims.batchCoord_eq_zero _ _ _ List.not_mem_nil, Nat.add_zero]
  unfold GatherDims.start
  rw [dif_neg (show (2 : Fin 3) ∉ ([0, 1] : List (Fin 3)) by decide), Nat.zero_add]
  rfl

/-- The gather read at `(e, j)`, for the record built from the attribute lists: the table at `(n, t, j)`. -/
theorem tableDims_apply
    (x : (⟨3, ![N, T, C]⟩ : Shape).Idx → α) (idx : IVec ⟨2, ![R, 2]⟩ 32) (e : Fin R) (j : Fin C) (n : Fin N) (t : Fin T)
    (h0 : idx (ix2 e (0 : Fin 2)) = BitVec.ofNat 32 n.val) (h1 : idx (ix2 e (1 : Fin 2)) = BitVec.ofNat 32 t.val)
    (hN : N < 2 ^ 31) (hT : T < 2 ^ 31) :
    Host.gather (tableDims wf) x idx (ix2 e j) = x (ix3 n t j) := by
  unfold Host.gather
  congr 1
  funext a
  match a with
  | ⟨0, _⟩ => exact Fin.ext (table_operand_fst wf idx e j n h0 hN)
  | ⟨1, _⟩ => exact Fin.ext (table_operand_snd wf idx e j t h1 hT)
  | ⟨2, _⟩ => exact Fin.ext (table_operand_col wf idx e j)

/-- ROWS OF A 3-D TABLE BY TWO INDICES, for any dimension numbers with these attribute lists: a gather of whole
    last-axis rows of an `N × T × C` table at an `R × 2` array of start indices reads, at result entry `(e, j)`, the
    table at `(n, t, j)`, where `(n, t)` is the in-range pair that start index `e` names. -/
theorem gather_table_rows_apply (d : GatherDims ⟨3, ![N, T, C]⟩ ⟨2, ![R, 2]⟩ ⟨2, ![R, C]⟩)
    (hod : d.offsetDims = [1]) (hcd : d.collapsedSliceDims = [0, 1]) (hob : d.operandBatchingDims = [])
    (hsb : d.startIndicesBatchingDims = []) (hsm : d.startIndexMap = [0, 1]) (hiv : d.indexVectorDim = 1)
    (hss : d.sliceSizes = ![1, 1, C])
    (x : (⟨3, ![N, T, C]⟩ : Shape).Idx → α) (idx : IVec ⟨2, ![R, 2]⟩ 32) (e : Fin R) (j : Fin C) (n : Fin N) (t : Fin T)
    (h0 : idx (ix2 e (0 : Fin 2)) = BitVec.ofNat 32 n.val) (h1 : idx (ix2 e (1 : Fin 2)) = BitVec.ofNat 32 t.val)
    (hN : N < 2 ^ 31) (hT : T < 2 ^ 31) :
    Host.gather d x idx (ix2 e j) = x (ix3 n t j) := by
  obtain ⟨od, cd, ob, sb, sm, iv, ss, wf⟩ := d
  simp only at hod hcd hob hsb hsm hiv hss
  subst hod hcd hob hsb hsm hiv hss
  exact tableDims_apply wf x idx e j n t h0 h1 hN hT

end TableRows
end Idealize.ShloMosaic.GatherRows
-- ==== Proof.RefValue.lean ====
/-
  The reference, entry by entry, at the ideal values.

  The reference goes through the eight types in order: for type `t` it multiplies `x` by weight matrix `t` (a slice of
  the weights, re-laid as a `128 × 128` matrix) and then scales row `n` of the product by the indicator "row `n`'s type
  word is `t`", adding the eight results up from zero; last it adds, for each row, the bias row its type word names —
  read with a negative word wrapped around and the result clamped into the table. For a row whose word is one of
  `0 … 7`, of type `τ`, nothing wraps or clamps, seven of the eight scaled products are `0` and the eighth is the
  product itself: entry `(n, o)` is `∑ k, x (n, k) · W (τ, k, o) + b (τ, o)`, the typed linear map.
-/
import proofs.«423097_j71116068487913_2_alg».proof.Proof.Gen.ReferenceIdeal.Read
import proofs.«423097_j71116068487913_2_alg».proof.Proof.TypeWords
import proofs.«423097_j71116068487913_2_alg».proof.Proof.LibGatherRows
import Idealize.ShloMosaic.Lib.Pipeline.Value
import Idealize.ShloMosaic.Lib.ValueIdx
import Idealize.ShloMosaic.PureOps.Ideal.Laws

noncomputable section

open scoped BigOperators

namespace Cert.ReferenceIdeal.Typed

open Cert.ReferenceIdeal Cert.ReferenceIdeal.Gen Cert.ReferenceIdeal.Read Idealize.ShloMosaic Idealize.ShloMosaic.ValueIdx
open Cert.TypedLinear

/-! ## One product -/

/-- The host's product of `x` with a `128 × 128` matrix at entry `(n, o)`: row `n` against column `o`. -/
theorem hostDot_apply (a : FVec Ideal S262144x128 .f32) (b : FVec Ideal S128x128 .f32) (n : Fin 262144) (o : Fin 128) :
    Host.dotGeneral dot_S262144x128_S128x128_S262144x128_1_0_0_1_n_n none a b (ix2 n o) = ∑ k : Fin 128, a (ix2 n k) * b (ix2 k o) := by
  simp only [Host.dotGeneral]
  rw [Ideal.dotGeneral_apply, ← Equiv.sum_comp (ValueIdx.contrEquiv1 dot_S262144x128_S128x128_S262144x128_1_0_0_1_n_n 128 rfl rfl).symm]
  refine Finset.sum_congr rfl fun k _ => ?_
  have hk := ValueIdx.contrEquiv1_symm_val dot_S262144x128_S128x128_S262144x128_1_0_0_1_n_n 128 rfl rfl k
  have el : dot_S262144x128_S128x128_S262144x128_1_0_0_1_n_n.lhsIdx (ix2 n o) ((ValueIdx.contrEquiv1 dot_S262144x128_S128x128_S262144x128_1_0_0_1_n_n 128 rfl rfl).symm k) = ix2 n k := funext fun c => Fin.ext (by
    match c with
    | ⟨0, _⟩ => exact lhs_main_v7_0 _ _
    | ⟨1, _⟩ => exact (lhs_main_v7_1 _ _).trans hk)
  have er : dot_S262144x128_S128x128_S262144x128_1_0_0_1_n_n.rhsIdx (ix2 n o) ((ValueIdx.contrEquiv1 dot_S262144x128_S128x128_S262144x128_1_0_0_1_n_n 128 rfl rfl).symm k) = ix2 k o := funext fun c => Fin.ext (by
    match c with
    | ⟨0, _⟩ => exact (rhs_main_v7_0 _ _).trans hk
    | ⟨1, _⟩ => exact rhs_main_v7_1 _ _)
  rw [el, er]

/-! ## The contribution of one type -/

/-- What the reference adds for type `t`: `x` times weight matrix `t`, each row scaled by "its word is `t`". -/
def typeTerm (t : Nat) (hs : S8x128x128.Slices ![t, 0, 0] S1x128x128) (x0 : FVec Ideal S262144x128 .f32)
    (x1 : IVec S262144 32) (x2 : FVec Ideal S8x128x128 .f32) : FVec Ideal S262144x128 .f32 :=
  mulf (Host.dotGeneral dot_S262144x128_S128x128_S262144x128_1_0_0_1_n_n none x0
      (shapeCast S128x128 (extractStridedSlice S1x128x128 ![t, 0, 0] x2 hs) shapeCasts_S1x128x128_S128x128))
    (broadcastInDim S262144x128 ![0, 1] bcast_S262144x1_S262144x128_0_1
      (broadcastInDim S262144x1 ![0] bcast_S262144_S262144x1_0
        (uitofp .f32 (cmpi .eq x1 (broadcastInDim S262144 ![] bcast_S_S262144 (constantI S_ 32 (BitVec.ofNat 32 t)))))))

/-- Its entry `(n, o)`: row `n` against column `o` of matrix `t`, times the indicator of `t` at row `n`'s word. -/
theorem typeTerm_apply (t : Nat) (ht : t < 8) (hs : S8x128x128.Slices ![t, 0, 0] S1x128x128) (x0 : FVec Ideal S262144x128 .f32)
    (x1 : IVec S262144 32) (x2 : FVec Ideal S8x128x128 .f32) (n : Fin 262144) (o : Fin 128) :
    typeTerm t hs x0 x1 x2 (ix2 n o)
      = (∑ k : Fin 128, x0 (ix2 n k) * x2 (ix3 (⟨t, ht⟩ : Fin 8) k o)) * hot (x1 (ix1 n)) t := by
  show Host.dotGeneral dot_S262144x128_S128x128_S262144x128_1_0_0_1_n_n none x0
        (shapeCast S128x128 (extractStridedSlice S1x128x128 ![t, 0, 0] x2 hs) shapeCasts_S1x128x128_S128x128) (ix2 n o)
      * broadcastInDim S262144x128 ![0, 1] bcast_S262144x1_S262144x128_0_1
          (broadcastInDim S262144x1 ![0] bcast_S262144_S262144x1_0
            (uitofp .f32 (cmpi .eq x1 (broadcastInDim S262144 ![] bcast_S_S262144 (constantI S_ 32 (BitVec.ofNat 32 t)))))) (ix2 n o)
      = _
  rw [hostDot_apply]
  congr 1
  · refine Finset.sum_congr rfl fun k _ => ?_
    congr 1
    rw [shapeCast_apply _ shapeCasts_S1x128x128_S128x128 (ix2 k o) (ix3 (0 : Fin 1) k o) (by
      rw [Shape.rowMajor_val_three, Shape.rowMajor_val_two]
      show (0 * 128 + k.val) * 128 + o.val = k.val * 128 + o.val
      omega)]
    exact extractStridedSlice_apply ![t, 0, 0] x2 hs (ix3 (0 : Fin 1) k o) (ix3 (⟨t, ht⟩ : Fin 8) k o) (fun a => match a with
      | ⟨0, _⟩ => by show t = t + 0; omega
      | ⟨1, _⟩ => by show k.val = 0 + k.val; omega
      | ⟨2, _⟩ => by show o.val = 0 + o.val; omega)
  · rw [broadcastInDim_apply _ bcast_S262144x1_S262144x128_0_1 _ (ix2 n o) (ix2 n (0 : Fin 1)) (fun a => match a with
        | ⟨0, _⟩ => by show n.val = (if (262144 : Nat) = 1 then 0 else n.val); rw [if_neg (by decide)]
        | ⟨1, _⟩ => by show 0 = (if (1 : Nat) = 1 then 0 else o.val); rw [if_pos rfl]),
      broadcastInDim_apply _ bcast_S262144_S262144x1_0 _ (ix2 n (0 : Fin 1)) (ix1 n) (fun a => match a with
        | ⟨0, _⟩ => by show n.val = (if (262144 : Nat) = 1 then 0 else n.val); rw [if_neg (by decide)])]
    show FloatOps.uitofp (F := Ideal) .f32 (IntOp.cmpi .eq (x1 (ix1 n)) (BitVec.ofNat 32 t)) = _
    rw [uitofp_eq_word]
    rfl

/-! ## The bias row a word names -/

/-- The gathered bias at `(n, o)`, for a word that is one of `0 … 7`: the bias row of the word's type. -/
theorem gather_entry (x1 : IVec S262144 32) (x3 : FVec Ideal S8x128 .f32) (n : Fin 262144) (o : Fin 128)
    (hw : (x1 (ix1 n)).toNat < 8) :
    val_main_v87 (F := Ideal) x1 x3 (ix2 n o) = x3 (ix2 (typeIx (x1 (ix1 n))) o) := by
  unfold val_main_v87
  refine GatherRows.gather_rows_apply gather_S8x128_S262144x1_S262144x128_1_0_n_n_0_1_1128 rfl rfl rfl rfl rfl rfl rfl x3 _ n o (typeIx (x1 (ix1 n))) ?_ (by decide)
  rw [val_main_v86_apply]
  have hi : idx_main_v86 (ix2 n (0 : Fin 1)) = ix1 n := funext fun a => by
    match a with
    | ⟨0, _⟩ => rfl
  rw [hi, val_main_v85_apply, val_main_v82_apply]
  have h0 : val_main_v81 (F := Ideal) (ix1 n) = 0#32 := rfl
  rw [h0, slt_zero_of_small _ hw, select_zero]
  exact eq_ofNat_typeIx _ hw

/-! ## The reference's result -/

/-- The result stage with the eight types' contributions named. -/
theorem result_eq (x0 : FVec Ideal S262144x128 .f32) (x1 : IVec S262144 32) (x2 : FVec Ideal S8x128x128 .f32)
    (x3 : FVec Ideal S8x128 .f32) :
    val_main_v88 (F := Ideal) x0 x1 x2 x3
      = addf
          (addf (addf (addf (addf (addf (addf (addf (addf (val_main_v0 (F := Ideal))
            (typeTerm 0 slices_S8x128x128_S1x128x128_0_0_0 x0 x1 x2))
            (typeTerm 1 slices_S8x128x128_S1x128x128_1_0_0 x0 x1 x2))
            (typeTerm 2 slices_S8x128x128_S1x128x128_2_0_0 x0 x1 x2))
            (typeTerm 3 slices_S8x128x128_S1x128x128_3_0_0 x0 x1 x2))
            (typeTerm 4 slices_S8x128x128_S1x128x128_4_0_0 x0 x1 x2))
            (typeTerm 5 slices_S8x128x128_S1x128x128_5_0_0 x0 x1 x2))
            (typeTerm 6 slices_S8x128x128_S1x128x128_6_0_0 x0 x1 x2))
            (typeTerm 7 slices_S8x128x128_S1x128x128_7_0_0 x0 x1 x2))
          (val_main_v87 (F := Ideal) x1 x3) := rfl

/-- The sum starts at zero. -/
theorem zero_apply (i : S262144x128.Idx) : val_main_v0 (F := Ideal) i = (0 : EReal) := by
  show Ideal.ofBits .f32 0x00000000#32 = 0
  exact Ideal.ofBits_zero_f32

/-- ENTRY `(n, o)` OF THE REFERENCE'S RESULT, for a row whose type word is one of `0 … 7`: the typed linear map. -/
theorem entry_eq (x0 : FVec Ideal S262144x128 .f32) (x1 : IVec S262144 32) (x2 : FVec Ideal S8x128x128 .f32)
    (x3 : FVec Ideal S8x128 .f32) (n : Fin 262144) (o : Fin 128) (hw : (x1 (ix1 n)).toNat < 8) :
    val_main_v88 (F := Ideal) x0 x1 x2 x3 (ix2 n o) = entry x0 x1 x2 x3 n o := by
  rw [result_eq]
  simp only [ValueIdx.addf_apply]
  rw [typeTerm_apply 0 (by decide), typeTerm_apply 1 (by decide), typeTerm_apply 2 (by decide), typeTerm_apply 3 (by decide),
    typeTerm_apply 4 (by decide), typeTerm_apply 5 (by decide), typeTerm_apply 6 (by decide), typeTerm_apply 7 (by decide),
    zero_apply, gather_entry x1 x3 n o hw,
    hot_eq _ hw 0 (by decide), hot_eq _ hw 1 (by decide), hot_eq _ hw 2 (by decide), hot_eq _ hw 3 (by decide),
    hot_eq _ hw 4 (by decide), hot_eq _ hw 5 (by decide), hot_eq _ hw 6 (by decide), hot_eq _ hw 7 (by decide)]
  unfold entry
  exact congrArg (· + _) (product_chain (typeIx (x1 (ix1 n))) (fun t => ∑ k : Fin 128, x0 (ix2 n k) * x2 (ix3 t k o)) 0 rfl)

/-- The reference's whole result, when every type word is one of `0 … 7`. -/
theorem result_eq_typed (x0 : FVec Ideal S262144x128 .f32) (x1 : IVec S262144 32) (x2 : FVec Ideal S8x128x128 .f32)
    (x3 : FVec Ideal S8x128 .f32) (hty : Typed x1) :
    val_main_v88 (F := Ideal) x0 x1 x2 x3 = result x0 x1 x2 x3 := by
  funext i
  obtain ⟨n, o, rfl⟩ : ∃ (n : Fin 262144) (o : Fin 128), i = ix2 n o := ⟨i 0, i 1, eq_ix2 i⟩
  exact entry_eq x0 x1 x2 x3 n o (hty n)

end Cert.ReferenceIdeal.Typed

end
-- ==== Proof.PreRead.lean ====
/-
  What the precondition says of the type words.

  The precondition is a conjunction of five `all`s: the three float arrays finite, every type word `≥ 0`, every type
  word `< 8` (as signed integers). It holds when the conjunction is the bit `1`; then each conjunct is `1`, an `all` that
  is `1` had a `1` at every index, and a word that is `≥ 0` and `< 8` is one of `0 … 7`. The finiteness conjuncts are
  not needed: the two programs agree at the infinities too.
-/
import proofs.«423097_j71116068487913_2_alg».proof.Pre_finite_inputs
import proofs.«423097_j71116068487913_2_alg».proof.Proof.TypeWords
import Idealize.ShloMosaic.Lib.ReduceAll
import Idealize.ShloMosaic.Lib.ValueIdx

namespace Cert.Pre_finite_inputs

open Idealize.ShloMosaic Idealize.ShloMosaic.ValueIdx Cert.TypedLinear

/-- Under the precondition every type word is one of `0 … 7`. -/
theorem typed_of_pre [Facts] (x0 : FVec Ideal S262144x128 .f32) (x1 : IVec S262144 32) (x2 : FVec Ideal S8x128x128 .f32)
    (x3 : FVec Ideal S8x128 .f32) (h : fn (F := Ideal) x0 x1 x2 x3 = fun _ => 1#1) : Typed x1 := by
  have h1 := congrFun h ix0
  dsimp only [fn, fn_part1] at h1
  obtain ⟨h2, hlt⟩ := IntOp.andi_eq_one.mp h1
  obtain ⟨-, hge⟩ := IntOp.andi_eq_one.mp h2
  haveI : Subsingleton S_.Idx := ⟨fun a b => funext fun d => d.elim0⟩
  intro n
  exact toNat_lt_eight _ (Host.reduce_andi_all _ _ _ _ _ hge (ix1 n)) (Host.reduce_andi_all _ _ _ _ _ hlt (ix1 n))

end Cert.Pre_finite_inputs
-- ==== Proof.lean ====
/-
  The kernel computes, for each of 262144 rows `n` carrying a type word, `x[n] · W[type] + b[type]`: it multiplies the
  row by the indicator of each of the eight types, lays the eight masked copies side by side and takes ONE product against
  the eight weight matrices stacked on top of each other, then adds the indicator-weighted bias rows. The reference takes
  the eight products first, scales each by its indicator, adds them up, and gathers the bias row the word names.

  On the extended reals `0 · a = 0` and `1 · a = a` for every `a`, so each of these sums keeps exactly the terms of the
  row's own type, PROVIDED the word is one of `0 … 7`: then both results are the typed linear map
  (`TypedLinear.result`), entry by entry. Outside that range the two programs differ (no indicator fires, yet the
  reference still gathers a bias row), which is why the precondition asks every type word to be `≥ 0` and `< 8`; the
  finiteness it also asks is not used.

  The kernel's side is read off its generated frame run block by block (`KernelBody`: one block's entries;
  `KernelBlocks`: the blocks tile the array), the reference's off its generated run operation by operation (`RefValue`),
  the range of the words out of the printed precondition (`PreRead`).
-/
import proofs.«423097_j71116068487913_2_alg».proof.Defs
import proofs.«423097_j71116068487913_2_alg».proof.Proof.Gen.Kernel
import proofs.«423097_j71116068487913_2_alg».proof.Proof.Gen.Kernel.Skeleton
import proofs.«423097_j71116068487913_2_alg».proof.Proof.Gen.Kernel.Launch
import proofs.«423097_j71116068487913_2_alg».proof.Proof.Gen.Kernel.Points
import proofs.«423097_j71116068487913_2_alg».proof.Proof.Gen.Kernel.Frame
import proofs.«423097_j71116068487913_2_alg».proof.Proof.Gen.KernelIdeal
import proofs.«423097_j71116068487913_2_alg».proof.Proof.Gen.KernelIdeal.Skeleton
import proofs.«423097_j71116068487913_2_alg».proof.Proof.Gen.KernelIdeal.Launch
import proofs.«423097_j71116068487913_2_alg».proof.Proof.Gen.KernelIdeal.Points
import proofs.«423097_j71116068487913_2_alg».proof.Proof.Gen.KernelIdeal.Frame
import proofs.«423097_j71116068487913_2_alg».proof.Proof.Gen.ReferenceIdeal
import proofs.«423097_j71116068487913_2_alg».proof.Proof.Gen.Pre_finite_inputs
import proofs.«423097_j71116068487913_2_alg».proof.Proof.Gen.KernelIdeal.Value
import proofs.«423097_j71116068487913_2_alg».proof.Proof.Gen.ReferenceIdeal.Run
import proofs.«423097_j71116068487913_2_alg».proof.Proof.Gen.ReferenceIdeal.Read
import proofs.«423097_j71116068487913_2_alg».proof.Proof.KernelBlocks
import proofs.«423097_j71116068487913_2_alg».proof.Proof.RefValue
import proofs.«423097_j71116068487913_2_alg».proof.Proof.PreRead
import Idealize.ShloMosaic.Adequacy
import Idealize.ShloMosaic.Init

noncomputable section

namespace Cert.Proof

open Idealize.ShloMosaic Idealize.ShloMosaic.TcCoe Idealize.SL.Sem

/-- The word-level kernel runs and leaves its arguments alone: its generated frame. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments alone: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, with every type word one of `0 … 7` (the precondition), the kernel's
    result array and the reference's both end at the typed linear map of the arguments. -/
theorem algebraic : Cert.algebraic_KernelIdeal_ReferenceIdeal := by
  intro m ρ m' ρ' hpre hagree
  have hty : ∀ c : Dev Cert.KernelIdeal.nD, Cert.TypedLinear.Typed (Cert.KernelIdeal.Blocks.tyArr m c) :=
    fun c => Cert.Pre_finite_inputs.typed_of_pre _ _ _ _ (hpre c)
  refine ⟨fun c => Cert.TypedLinear.result (Cert.KernelIdeal.Blocks.xArr m c) (Cert.KernelIdeal.Blocks.tyArr m c)
      (Cert.KernelIdeal.Blocks.wArr m c) (Cert.KernelIdeal.Blocks.bArr m c),
    Cert.KernelIdeal.Blocks.run m ρ hty, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v88_eq, (hagree c).1, (hagree c).2.1, (hagree c).2.2.1, (hagree c).2.2.2]
  exact Cert.ReferenceIdeal.Typed.result_eq_typed _ _ _ _ (hty c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
